-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8192x128 .f32) (main_arg1 : FVec F S256x128 .f32) (main_arg2 : FVec F S256 .f32) (main_arg3 : FVec F S8x256 .f32) (main_arg4 : FVec F S8 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_v13 main_v16
-- ==== Kernel.lean ====
abbrev S8192x128 : Shape := ⟨2, ![8192, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S1x256 : Shape := ⟨2, ![1, 256]⟩
abbrev S1x8 : Shape := ⟨2, ![1, 8]⟩
abbrev S8192x8 : Shape := ⟨2, ![8192, 8]⟩
abbrev S2048x128 : Shape := ⟨2, ![2048, 128]⟩
abbrev S2048x8 : Shape := ⟨2, ![2048, 8]⟩
abbrev S2048 : Shape := ⟨1, ![2048]⟩
abbrev S2048x1 : Shape := ⟨2, ![2048, 1]⟩
abbrev S256x1 : Shape := ⟨2, ![256, 1]⟩
abbrev S2048x256 : Shape := ⟨2, ![2048, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S1x256, .f32⟩
  | .hbm, ⟨6, _⟩ => ⟨S1x8, .f32⟩
  | .hbm, ⟨7, _⟩ => ⟨S8192x8, .f32⟩
  | .local _ .vmem, ⟨0, _⟩ => ⟨S2048x128, .f32⟩
  | .local _ .vmem, ⟨1, _⟩ => ⟨S2048x128, .f32⟩
  | .local _ .vmem, ⟨2, _⟩ => ⟨S256x128, .f32⟩
  | .local _ .vmem, ⟨3, _⟩ => ⟨S1x256, .f32⟩
  | .local _ .vmem, ⟨4, _⟩ => ⟨S8x256, .f32⟩
  | .local _ .vmem, ⟨5, _⟩ => ⟨S1x8, .f32⟩
  | .local _ .vmem, ⟨6, _⟩ => ⟨S2048x8, .f32⟩
  | .local _ .vmem, ⟨7, _⟩ => ⟨S2048x8, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S8_S1x8 : S8.ShapeCasts S1x8
  inb_S2048x128_S2048x128_0_0 : ∀ a, (![0, 0] : Fin 2 → Nat) a + S2048x128.size a ≤ S2048x128.size a
  h_S2048x128 : 0 < S2048x128.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8x256_S8x256_0_0 : ∀ a, (![0, 0] : Fin 2 → Nat) a + S8x256.size a ≤ S8x256.size a
  h_S8x256 : 0 < S8x256.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  reduces_S2048x128_S2048 : S2048x128.Reduces [1] S2048
  shapeCasts_S2048_S2048x1 : S2048.ShapeCasts S2048x1
  reduces_S256x128_S256 : S256x128.Reduces [1] S256
  shapeCasts_S256_S256x1 : S256.ShapeCasts S256x1
  broadcasts_S2048x1_S2048x256 : S2048x1.Broadcasts S2048x256
  transposes_S256x1_p1_0_S1x256 : S256x1.Transposes [1, 0] S1x256
  broadcasts_S1x256_S2048x256 : S1x256.Broadcasts S2048x256
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  dot_S2048x128_S256x128_S2048x256_1_1_0_0_n_n_wf : DotDims.WF S2048x128 S256x128 S2048x256 [1] [1] [0] [0] [] []
  dot_S2048x256_S8x256_S2048x8_1_1_0_0_n_n_wf : DotDims.WF S2048x256 S8x256 S2048x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .f32 = 32 ∨ (Rect.block (s := S8x256) S8x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x8.size a ≤ S8192x8.size a
  hwx0_5 : ∀ i : grid0.Coords, EltTy.bits .f32 = 32 ∨ (Rect.block (s := S8192x8) S2048x8.size (cc0_transform_5 i) (hinb0_5 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S8x256_S2048x8_1_1_0_0_n_n : DotDims S2048x256 S8x256 S2048x8 where
  lhsContracting := [1]
  rhsContracting := [1]
  lhsNonContracting := [0]
  rhsNonContracting := [0]
  lhsBatch := []
  rhsBatch := []
  wf := dot_S2048x256_S8x256_S2048x8_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S_ : Shape := ⟨0, ![]⟩
abbrev S8192 : Shape := ⟨1, ![8192]⟩
abbrev S8192x1 : Shape := ⟨2, ![8192, 1]⟩
abbrev S128x256 : Shape := ⟨2, ![128, 256]⟩
abbrev S8192x256 : Shape := ⟨2, ![8192, 256]⟩
abbrev S1x256 : Shape := ⟨2, ![1, 256]⟩
abbrev S256x8 : Shape := ⟨2, ![256, 8]⟩
abbrev S8192x8 : Shape := ⟨2, ![8192, 8]⟩
abbrev S1x8 : Shape := ⟨2, ![1, 8]⟩

abbrev nBuf : Space → Nat
  | .hbm => 36
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S256x128, .f32⟩
  | .hbm, ⟨10, _⟩ => ⟨S_, .f32⟩
  | .hbm, ⟨11, _⟩ => ⟨S256, .f32⟩
  | .hbm, ⟨12, _⟩ => ⟨S128x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S256x8, .f32⟩
  | .hbm, ⟨32, _⟩ => ⟨S8192x8, .f32⟩
  | .hbm, ⟨33, _⟩ => ⟨S1x8, .f32⟩
  | .hbm, ⟨34, _⟩ => ⟨S8192x8, .f32⟩
  | .hbm, ⟨35, _⟩ => ⟨S8192x8, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S256x128_S256_d1 : S256x128.ReducesTo [1] S256
  transposes_S256x128_S128x256_1_0 : S256x128.Transposes [1, 0] S128x256
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8x256_S256x8_1_0 : S8x256.Transposes [1, 0] S256x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S8192x128_S128x256_S8192x256_1_0_0_1_n_n_wf : DotDims.WF S8192x128 S128x256 S8192x256 [1] [0] [0] [1] [] []
  dot_S8192x256_S256x8_S8192x8_1_0_0_1_n_n_wf : DotDims.WF S8192x256 S256x8 S8192x8 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x8_S8192x8_1_0_0_1_n_n : DotDims S8192x256 S256x8 S8192x8 where
  lhsContracting := [1]
  rhsContracting := [0]
  lhsNonContracting := [0]
  rhsNonContracting := [1]
  lhsBatch := []
  rhsBatch := []
  wf := dot_S8192x256_S256x8_S8192x8_1_0_0_1_n_n_wf

class Facts : Prop extends Facts₀ where

variable [Facts]
-- ==== Proof.Spec.lean ====
/-
  One entry of the radial-basis layer's output, as a function of the data it depends on: one input row `xr`, the table of
  centres `ctr`, the per-centre widths `s`, one row `w` of the linear head's weights and one bias `b`:

      entry = (∑ₖ exp(−max(‖xr‖² − 2·⟨xr, ctrₖ⟩ + ‖ctrₖ‖², 0) · sₖ²) · wₖ) + b

  over the extended reals: the squared distance to centre k by its expansion, clamped below at zero, scaled by the squared
  width, through the Gaussian, then the head's weighted sum over the 256 centres and the bias. Both programs compute exactly
  this term at every output index (row of `x`, head unit), with the operations in this order; the only difference in
  spelling is that one negates and the other subtracts from zero, and on the extended reals `0 - y = -y`.
-/
import Idealize.ShloMosaic.PureOps.Ideal
import Idealize.ShloMosaic.Lib.ValueIdx

noncomputable section

namespace Cert.Rbf

open Idealize.ShloMosaic Idealize.ShloMosaic.ValueIdx

/-- What the f32 pattern of `2.0` denotes (never evaluated: both programs carry the same word). -/
abbrev two : EReal := Ideal.ofBits .f32 0x40000000#32

/-- The squared distance between an input row and a centre, expanded as ‖x‖² − 2⟨x, c⟩ + ‖c‖² and clamped below at zero. -/
def sqdist (xr cr : Fin 128 → EReal) : EReal :=
  max (((∑ d, xr d * xr d) - two * ∑ d, xr d * cr d) + ∑ d, cr d * cr d) 0

/-- One output entry: the Gaussian responses to the 256 centres, weighted by one row of the head, plus the bias. -/
def entry (xr : Fin 128 → EReal) (ctr : Fin 256 → Fin 128 → EReal) (s w : Fin 256 → EReal) (b : EReal) : EReal :=
  (∑ k, Ideal.exp (-(sqdist xr (ctr k)) * (s k * s k)) * w k) + b

/-- The layer's whole output: entry `(r, o)` is `entry` of row `r` of the input `x`, the centres, the widths, row `o` of the
    head's weights and bias `o`. -/
def G (x : (⟨2, ![8192, 128]⟩ : Shape).Idx → EReal) (ctr : (⟨2, ![256, 128]⟩ : Shape).Idx → EReal)
    (s : (⟨1, ![256]⟩ : Shape).Idx → EReal) (W : (⟨2, ![8, 256]⟩ : Shape).Idx → EReal) (b : (⟨1, ![8]⟩ : Shape).Idx → EReal) :
    (⟨2, ![8192, 8]⟩ : Shape).Idx → EReal :=
  fun i => entry (fun d => x (ix2 (⟨(i 0).val, idx2_lt0 i⟩ : Fin 8192) d)) (fun k d => ctr (ix2 k d)) (fun k => s (ix1 k))
    (fun k => W (ix2 (⟨(i 1).val, idx2_lt1 i⟩ : Fin 8) k)) (b (ix1 (⟨(i 1).val, idx2_lt1 i⟩ : Fin 8)))

theorem G_apply (x : (⟨2, ![8192, 128]⟩ : Shape).Idx → EReal) (ctr : (⟨2, ![256, 128]⟩ : Shape).Idx → EReal)
    (s : (⟨1, ![256]⟩ : Shape).Idx → EReal) (W : (⟨2, ![8, 256]⟩ : Shape).Idx → EReal) (b : (⟨1, ![8]⟩ : Shape).Idx → EReal)
    (r : Fin 8192) (o : Fin 8) :
    G x ctr s W b (ix2 r o)
      = entry (fun d => x (ix2 r d)) (fun k d => ctr (ix2 k d)) (fun k => s (ix1 k)) (fun k => W (ix2 o k)) (b (ix1 o)) := rfl

end Cert.Rbf

end
-- ==== Proof.LibKeepdims.lean ====
/-
  Layout operations of a `keepdims` row reduction read at an index given by coordinates — the column forms beside the
  library's row forms: a vector `[a]` cast to the column `[a, 1]`, a column `[a, 1]` broadcast along a new minor
  extent to `[a, b]`, and a lane sum of an `[a, b]` array over its minor axis read at a row as the sum over that row
  (at the exact instance, into the zero accumulator). General in the extents; nothing here mentions a program.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(i, u)`, the operand at `i`, whatever the unit coordinate `u`:
    the two row-major positions are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`: the unit axis reads `0`,
    the row axis is kept (also when `a = 1`, where the only row is row `0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float lane sum of an `[a, b]` array over its minor axis, into the zero accumulator, read at row
    `i` is the sum over the `b` entries of that row. (The accumulator's side condition is typed as a printed program
    carries it, an equation between the two zero words.) -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin b, src (ix2 i d) :=
  (Ideal.multiReduction_add_single src 0x00000000#32 h hφ hacc (ix1 i)).trans
    (Finset.sum_congr rfl fun d _ => congrArg src (funext fun ax => Fin.ext (by
      match ax with
      | ⟨0, _⟩ => rfl
      | ⟨1, _⟩ => rfl)))

end Cert.LibKeepdims
-- ==== Proof.Payload.lean ====
/-
  The kernel body's stored value at an entry of the output block.

  The body loads a block of 2048 input rows, the whole table of 256 centres, the row of widths, the head's weights and the
  row of biases, and stores one [2048, 8] value. Read at `(p, q)` that value is `Cert.Rbf.entry` of row `p` of the input
  block, the centres, the widths, row `q` of the weights and bias `q`:
  • the row norms ‖x_p‖² (a lane sum kept as a column, broadcast along the centres) and ‖c_k‖² (a lane sum kept as a
    column, transposed to a row, broadcast along the rows) are sums over the 128 features;
  • the product x·cᵀ, accumulated into zero with both operands contracted on their minor axis, is ∑_d x_p,d · c_k,d;
  • the head's product with the weights contracted on their minor axis is ∑_k φ_p,k · w_q,k;
  • everything between is pointwise, and `0 - y = -y` on the extended reals.
-/
import proofs.«148565_j73349451481363_1_alg».proof.Proof.Gen.KernelIdeal.Skeleton
import proofs.«148565_j73349451481363_1_alg».proof.Proof.Spec
import proofs.«148565_j73349451481363_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.LibKeepdims

/-! ## The two matrix products, read at an entry -/

theorem lhs_xc_0 (i : S2048x256.Idx) (q : dot_S2048x128_S256x128_S2048x256_1_1_0_0_n_n.contr.Idx) :
    (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide), dif_pos (show (0 : Fin S2048x128.rank) ∈ dot_S2048x128_S256x128_S2048x256_1_1_0_0_n_n.lhsNonContracting by decide)]
  rfl
theorem lhs_xc_1 (i : S2048x256.Idx) (q : dot_S2048x128_S256x128_S2048x256_1_1_0_0_n_n.contr.Idx) :
    (dot_S2048x128_S256x128_S2048x256_1_1_0_0_n_n.lhsIdx i q 1).val = (q ⟨0, by decide⟩).val :=
  dot_S2048x128_S256x128_S2048x256_1_1_0_0_n_n.lhsIdx_val_of_single rfl i q
theorem rhs_xc_0 (i : S2048x256.Idx) (q : dot_S2048x128_S256x128_S2048x256_1_1_0_0_n_n.contr.Idx) :
    (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide), dif_pos (show (0 : Fin S256x128.rank) ∈ dot_S2048x128_S256x128_S2048x256_1_1_0_0_n_n.rhsNonContracting by decide)]
  rfl
theorem rhs_xc_1 (i : S2048x256.Idx) (q : dot_S2048x128_S256x128_S2048x256_1_1_0_0_n_n.contr.Idx) :
    (dot_S2048x128_S256x128_S2048x256_1_1_0_0_n_n.rhsIdx i q 1).val = (q ⟨0, by decide⟩).val :=
  dot_S2048x128_S256x128_S2048x256_1_1_0_0_n_n.rhsIdx_val_of_single rfl i q

/-- The product of the input block with the centres, both contracted on the feature axis, at `(p, k)`: ⟨x_p, c_k⟩. -/
theorem xc_apply (v0 : FVec Ideal S2048x128 .f32) (v1 : FVec Ideal S256x128 .f32) (p : Fin 2048) (k : Fin 256) :
    matmul dot_S2048x128_S256x128_S2048x256_1_1_0_0_n_n none v0 v1 (constant S2048x256 .f32 0x00000000#32) (ix2 p k)
      = ∑ d : Fin 128, v0 (ix2 p d) * v1 (ix2 k d) := by
  simp only [matmul]
  rw [Ideal.matmul_constant_zero_apply, ← Equiv.sum_comp (ValueIdx.contrEquiv1 dot_S2048x128_S256x128_S2048x256_1_1_0_0_n_n 128 rfl rfl).symm]
  refine Finset.sum_congr rfl fun d _ => ?_
  have hd := ValueIdx.contrEquiv1_symm_val dot_S2048x128_S256x128_S2048x256_1_1_0_0_n_n 128 rfl rfl d
  have el : dot_S2048x128_S256x128_S2048x256_1_1_0_0_n_n.lhsIdx (ix2 p k) ((ValueIdx.contrEquiv1 dot_S2048x128_S256x128_S2048x256_1_1_0_0_n_n 128 rfl rfl).symm d) = ix2 p d := funext fun a => Fin.ext (by
    match a with
    | ⟨0, _⟩ => exact lhs_xc_0 _ _
    | ⟨1, _⟩ => exact (lhs_xc_1 _ _).trans hd)
  have er : dot_S2048x128_S256x128_S2048x256_1_1_0_0_n_n.rhsIdx (ix2 p k) ((ValueIdx.contrEquiv1 dot_S2048x128_S256x128_S2048x256_1_1_0_0_n_n 128 rfl rfl).symm d) = ix2 k d := funext fun a => Fin.ext (by
    match a with
    | ⟨0, _⟩ => exact rhs_xc_0 _ _
    | ⟨1, _⟩ => exact (rhs_xc_1 _ _).trans hd)
  rw [el, er]

theorem lhs_head_0 (i : S2048x8.Idx) (q : dot_S2048x256_S8x256_S2048x8_1_1_0_0_n_n.contr.Idx) :
    (dot_S2048x256_S8x256_S2048x8_1_1_0_0_n_n.lhsIdx i q 0).val = (i 0).val := by
  unfold DotDims.lhsIdx
  rw [dif_neg (show ¬(0 : Fin S2048x256.rank) ∈ dot_S2048x256_S8x256_S2048x8_1_1_0_0_n_n.lhsBatch by decide), dif_pos (show (0 : Fin S2048x256.rank) ∈ dot_S2048x256_S8x256_S2048x8_1_1_0_0_n_n.lhsNonContracting by decide)]
  rfl
theorem lhs_head_1 (i : S2048x8.Idx) (q : dot_S2048x256_S8x256_S2048x8_1_1_0_0_n_n.contr.Idx) :
    (dot_S2048x256_S8x256_S2048x8_1_1_0_0_n_n.lhsIdx i q 1).val = (q ⟨0, by decide⟩).val :=
  dot_S2048x256_S8x256_S2048x8_1_1_0_0_n_n.lhsIdx_val_of_single rfl i q
theorem rhs_head_0 (i : S2048x8.Idx) (q : dot_S2048x256_S8x256_S2048x8_1_1_0_0_n_n.contr.Idx) :
    (dot_S2048x256_S8x256_S2048x8_1_1_0_0_n_n.rhsIdx i q 0).val = (i 1).val := by
  unfold DotDims.rhsIdx
  rw [dif_neg (show ¬(0 : Fin S8x256.rank) ∈ dot_S2048x256_S8x256_S2048x8_1_1_0_0_n_n.rhsBatch by decide), dif_pos (show (0 : Fin S8x256.rank) ∈ dot_S2048x256_S8x256_S2048x8_1_1_0_0_n_n.rhsNonContracting by decide)]
  rfl
theorem rhs_head_1 (i : S2048x8.Idx) (q : dot_S2048x256_S8x256_S2048x8_1_1_0_0_n_n.contr.Idx) :
    (dot_S2048x256_S8x256_S2048x8_1_1_0_0_n_n.rhsIdx i q 1).val = (q ⟨0, by decide⟩).val :=
  dot_S2048x256_S8x256_S2048x8_1_1_0_0_n_n.rhsIdx_val_of_single rfl i q

/-- The head's product of the responses with the weights, both contracted on the centre axis, at `(p, q)`: ∑_k φ_p,k · w_q,k. -/
theorem head_apply (phi : FVec Ideal S2048x256 .f32) (v4 : FVec Ideal S8x256 .f32) (p : Fin 2048) (q : Fin 8) :
    matmul dot_S2048x256_S8x256_S2048x8_1_1_0_0_n_n none phi v4 (constant S2048x8 .f32 0x00000000#32) (ix2 p q)
      = ∑ k : Fin 256, phi (ix2 p k) * v4 (ix2 q k) := by
  simp only [matmul]
  rw [Ideal.matmul_constant_zero_apply, ← Equiv.sum_comp (ValueIdx.contrEquiv1 dot_S2048x256_S8x256_S2048x8_1_1_0_0_n_n 256 rfl rfl).symm]
  refine Finset.sum_congr rfl fun k _ => ?_
  have hk := ValueIdx.contrEquiv1_symm_val dot_S2048x256_S8x256_S2048x8_1_1_0_0_n_n 256 rfl rfl k
  have el : dot_S2048x256_S8x256_S2048x8_1_1_0_0_n_n.lhsIdx (ix2 p q) ((ValueIdx.contrEquiv1 dot_S2048x256_S8x256_S2048x8_1_1_0_0_n_n 256 rfl rfl).symm k) = ix2 p k := funext fun a => Fin.ext (by
    match a with
    | ⟨0, _⟩ => exact lhs_head_0 _ _
    | ⟨1, _⟩ => exact (lhs_head_1 _ _).trans hk)
  have er : dot_S2048x256_S8x256_S2048x8_1_1_0_0_n_n.rhsIdx (ix2 p q) ((ValueIdx.contrEquiv1 dot_S2048x256_S8x256_S2048x8_1_1_0_0_n_n 256 rfl rfl).symm k) = ix2 q k := funext fun a => Fin.ext (by
    match a with
    | ⟨0, _⟩ => exact rhs_head_0 _ _
    | ⟨1, _⟩ => exact (rhs_head_1 _ _).trans hk)
  rw [el, er]

/-! ## The re-laid pieces, read at an entry -/

/-- ‖x_p‖² as the body lays it out: the lane sum of the squares kept as a column and broadcast along the centres. -/
theorem xnorm_apply (v0 : FVec Ideal S2048x128 .f32) (p : Fin 2048) (k : Fin 256) :
    broadcastTo S2048x256 (shapeCast S2048x1 (multiReduction .add [1] S2048 (mulf v0 v0) 0x00000000#32 reduces_S2048x128_S2048 (.inl rfl) rfl) shapeCasts_S2048_S2048x1) broadcasts_S2048x1_S2048x256 (ix2 p k)
      = ∑ d : Fin 128, v0 (ix2 p d) * v0 (ix2 p d) :=
  (broadcastTo_a1_ab_apply _ _ p k).trans ((shapeCast_a_a1_apply _ _ p 0).trans (rowSum_apply (mulf v0 v0) _ _ _ p))

/-- ‖c_k‖² as the body lays it out: the lane sum of the squares kept as a column, transposed to a row and broadcast along the rows. -/
theorem cnorm_apply (v1 : FVec Ideal S256x128 .f32) (p : Fin 2048) (k : Fin 256) :
    broadcastTo S2048x256 (transpose S1x256 [1, 0] (shapeCast S256x1 (multiReduction .add [1] S256 (mulf v1 v1) 0x00000000#32 reduces_S256x128_S256 (.inl rfl) rfl) shapeCasts_S256_S256x1) transposes_S256x1_p1_0_S1x256) broadcasts_S1x256_S2048x256 (ix2 p k)
      = ∑ d : Fin 128, v1 (ix2 k d) * v1 (ix2 k d) :=
  (broadcastTo_1b_ab_apply _ _ p k).trans ((transpose_ix2_apply _ _ (0 : Fin 1) k).trans ((shapeCast_a_a1_apply _ _ k 0).trans (rowSum_apply (mulf v1 v1) _ _ _ k)))

/-- The squared widths, broadcast along the rows. -/
theorem width_apply (v2 : FVec Ideal S1x256 .f32) (p : Fin 2048) (k : Fin 256) :
    broadcastTo S2048x256 (mulf (shapeCast S1x256 v2 shapeCasts_S1x256_S1x256) (shapeCast S1x256 v2 shapeCasts_S1x256_S1x256)) broadcasts_S1x256_S2048x256 (ix2 p k)
      = v2 (ix2 (0 : Fin 1) k) * v2 (ix2 (0 : Fin 1) k) := by
  rw [shapeCast_self]
  exact broadcastTo_1b_ab_apply _ _ p k

/-- The biases, broadcast along the rows. -/
theorem bias_apply (v5 : FVec Ideal S1x8 .f32) (p : Fin 2048) (q : Fin 8) :
    broadcastTo S2048x8 (shapeCast S1x8 v5 shapeCasts_S1x8_S1x8) broadcasts_S1x8_S2048x8 (ix2 p q) = v5 (ix2 (0 : Fin 1) q) := by
  rw [shapeCast_self]
  exact broadcastTo_1b_ab_apply _ _ p q

/-! ## The stored value at an entry -/

theorem exp_apply {s : Shape} (v : FVec Ideal s .f32) (i : s.Idx) : exp v i = Ideal.exp (v i) := rfl

/-- The body's stored value at `(p, q)` is `Rbf.entry` of row `p` of the input block, the centres, the widths, row `q` of the
    weights and bias `q`. -/
theorem pay_apply (v0 : FVec Ideal S2048x128 .f32) (v1 : FVec Ideal S256x128 .f32) (v2 : FVec Ideal S1x256 .f32)
    (v4 : FVec Ideal S8x256 .f32) (v5 : FVec Ideal S1x8 .f32) (p : Fin 2048) (q : Fin 8) :
    k0_pay1 (F := Ideal) v0 v1 v2 v4 v5 (ix2 p q)
      = Cert.Rbf.entry (fun d => v0 (ix2 p d)) (fun k d => v1 (ix2 k d)) (fun k => v2 (ix2 (0 : Fin 1) k)) (fun k => v4 (ix2 q k)) (v5 (ix2 (0 : Fin 1) q)) := by
  unfold k0_pay1
  simp only [addf_apply, head_apply, bias_apply, exp_apply, mulf_apply, subf_apply, maximumf_apply, broadcast_apply,
    xc_apply, width_apply]
  unfold Cert.Rbf.entry Cert.Rbf.sqdist
  refine congrArg (· + v5 (ix2 (0 : Fin 1) q)) (Finset.sum_congr rfl fun k _ => ?_)
  refine congrArg (fun z => Ideal.exp (z * (v2 (ix2 (0 : Fin 1) k) * v2 (ix2 (0 : Fin 1) k))) * v4 (ix2 q k)) ?_
  -- the zero word denotes 0, the two norms are the sums over the features, and 0 - y = -y
  exact (congrArg₂ (fun a b => a - max b a) Ideal.ofBits_zero_f32
    (congrArg₂ (fun a c => a - Cert.Rbf.two * (∑ d : Fin 128, v0 (ix2 p d) * v1 (ix2 k d)) + c)
      (xnorm_apply v0 p k) (cnorm_apply v1 p k))).trans (zero_sub _)

end Cert.KernelIdeal.Pay

end
-- ==== Proof.KernelValue.lean ====
/-
  The kernel's output array after the run.

  The grid has four points; point `t` stages rows 2048·t … 2048·t + 2047 of the input, the whole table of centres, the
  widths and biases as rows (the host reshapes the two vectors before the call), the whole weight matrix, and writes back
  rows 2048·t … 2048·t + 2047 of the output. The body's stored value at `(p, q)` is `Rbf.entry` of the staged data
  (`Pay.pay_apply`), so what point `t` writes back is block `t` of `Rbf.G` of the argument arrays; the four blocks cover
  the output (row `r` lies in block `r / 2048`), so the output array ends as `Rbf.G` of the arguments.
-/
import proofs.«148565_j73349451481363_1_alg».proof.Proof.Gen.KernelIdeal.Value
import proofs.«148565_j73349451481363_1_alg».proof.Proof.Payload
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the four grid points: the input rows' and the output's block index is the point itself,
    every other window stays on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 4 :=
  (by decide +kernel : ∀ t : Fin grid0.N, _)

/-- Every point of the grid is one of the four: for each `n < 4` there is the point with that number. -/
theorem point_of : ∀ n : Fin 4, ∃ t : Fin cfg0.N, t.val = n.val :=
  (by decide +kernel : ∀ n : Fin 4, ∃ t : Fin grid0.N, t.val = n.val)

/-! ## The arrays the host wrote before the call -/

/-- The widths reach the call as a row: the host's reshape of the width vector. -/
theorem widths_row (c : Dev nD) :
    (V m c main_v0 : S1x256.Idx → Elt Ideal .f32) = shapeCast S1x256 (m ((c : Thread nD τ).loc main_arg2)) shapeCasts_S256_S1x256 := by
  dsimp only [V, hostOps0]; after_results; rfl

/-- The biases reach the call as a row: the host's reshape of the bias vector. -/
theorem biases_row (c : Dev nD) :
    (V m c main_v1 : S1x8.Idx → Elt Ideal .f32) = shapeCast S1x8 (m ((c : Thread nD τ).loc main_arg4)) shapeCasts_S8_S1x8 := by
  dsimp only [V, hostOps0]; after_results; rfl

/-! ## Each staged block read at coordinates -/

/-- Block `t` of the input: rows 2048·t … 2048·t + 2047 of the argument. -/
theorem rows_apply (c : Dev nD) (t : Fin cfg0.N) (p : Fin 2048) (d : Fin 128) (r : Fin 8192) (hr : r.val = 2048 * t.val + p.val) :
    (iblk m c 0 t : Vec Ideal S2048x128 .f32) (ix2 p d) = (m ((c : Thread nD τ).loc main_arg0) : S8192x128.Idx → Elt Ideal .f32) (ix2 r d) := by
  obtain ⟨e0, e1, -⟩ := idx_facts t
  unfold iblk
  rw [View.read_apply]
  show V m c main_arg0 _ = _
  rw [V_main_arg0 m c]
  refine congrArg (m ((c : Thread nD τ).loc main_arg0) : S8192x128.Idx → Elt Ideal .f32) (funext fun a => Fin.ext ?_)
  match a with
  | ⟨0, _⟩ => show win0_0.index t (0 : Fin 2) * 2048 + 1 * p.val = r.val; rw [e0, hr]; omega
  | ⟨1, _⟩ => show win0_0.index t (1 : Fin 2) * 128 + 1 * d.val = d.val; rw [e1]; omega

/-- The centres' one block is the whole table. -/
theorem centres_apply (c : Dev nD) (t : Fin cfg0.N) (k : Fin 256) (d : Fin 128) :
    (iblk m c 1 t : Vec Ideal S256x128 .f32) (ix2 k d) = (m ((c : Thread nD τ).loc main_arg1) : S256x128.Idx → Elt Ideal .f32) (ix2 k d) := by
  obtain ⟨-, -, e0, e1, -⟩ := idx_facts t
  unfold iblk
  rw [View.read_apply]
  show V m c main_arg1 _ = _
  rw [V_main_arg1 m c]
  refine congrArg (m ((c : Thread nD τ).loc main_arg1) : S256x128.Idx → Elt Ideal .f32) (funext fun a => Fin.ext ?_)
  match a with
  | ⟨0, _⟩ => show win0_1.index t (0 : Fin 2) * 256 + 1 * k.val = k.val; rw [e0]; omega
  | ⟨1, _⟩ => show win0_1.index t (1 : Fin 2) * 128 + 1 * d.val = d.val; rw [e1]; omega

/-- The widths' one block is the whole row, whose entry `k` is width `k`. -/
theorem widths_apply (c : Dev nD) (t : Fin cfg0.N) (k : Fin 256) :
    (iblk m c 2 t : Vec Ideal S1x256 .f32) (ix2 (0 : Fin 1) k) = (m ((c : Thread nD τ).loc main_arg2) : S256.Idx → Elt Ideal .f32) (ix1 k) := by
  obtain ⟨-, -, -, -, e0, e1, -⟩ := idx_facts t
  unfold iblk
  rw [View.read_apply]
  show (V m c main_v0 : S1x256.Idx → Elt Ideal .f32) _ = _
  rw [widths_row m c]
  refine (congrArg (shapeCast S1x256 (m ((c : Thread nD τ).loc main_arg2)) shapeCasts_S256_S1x256) (funext fun a => Fin.ext ?_)).trans
    (shapeCast_a_1a_apply _ _ (0 : Fin 1) k)
  match a with
  | ⟨0, _⟩ => show win0_2.index t (0 : Fin 2) * 1 + 1 * 0 = 0; rw [e0]
  | ⟨1, _⟩ => show win0_2.index t (1 : Fin 2) * 256 + 1 * k.val = k.val; rw [e1]; omega

/-- The weights' one block is the whole matrix. -/
theorem weights_apply (c : Dev nD) (t : Fin cfg0.N) (q : Fin 8) (k : Fin 256) :
    (iblk m c 3 t : Vec Ideal S8x256 .f32) (ix2 q k) = (m ((c : Thread nD τ).loc main_arg3) : S8x256.Idx → Elt Ideal .f32) (ix2 q k) := by
  obtain ⟨-, -, -, -, -, -, e0, e1, -⟩ := idx_facts t
  unfold iblk
  rw [View.read_apply]
  show V m c main_arg3 _ = _
  rw [V_main_arg3 m c]
  refine congrArg (m ((c : Thread nD τ).loc main_arg3) : S8x256.Idx → Elt Ideal .f32) (funext fun a => Fin.ext ?_)
  match a with
  | ⟨0, _⟩ => show win0_3.index t (0 : Fin 2) * 8 + 1 * q.val = q.val; rw [e0]; omega
  | ⟨1, _⟩ => show win0_3.index t (1 : Fin 2) * 256 + 1 * k.val = k.val; rw [e1]; omega

/-- The biases' one block is the whole row, whose entry `q` is bias `q`. -/
theorem biases_apply (c : Dev nD) (t : Fin cfg0.N) (q : Fin 8) :
    (iblk m c 4 t : Vec Ideal S1x8 .f32) (ix2 (0 : Fin 1) q) = (m ((c : Thread nD τ).loc main_arg4) : S8.Idx → Elt Ideal .f32) (ix1 q) := by
  obtain ⟨-, -, -, -, -, -, -, -, e0, e1, -⟩ := idx_facts t
  unfold iblk
  rw [View.read_apply]
  show (V m c main_v1 : S1x8.Idx → Elt Ideal .f32) _ = _
  rw [biases_row m c]
  refine (congrArg (shapeCast S1x8 (m ((c : Thread nD τ).loc main_arg4)) shapeCasts_S8_S1x8) (funext fun a => Fin.ext ?_)).trans
    (shapeCast_a_1a_apply _ _ (0 : Fin 1) q)
  match a with
  | ⟨0, _⟩ => show win0_4.index t (0 : Fin 2) * 1 + 1 * 0 = 0; rw [e0]
  | ⟨1, _⟩ => show win0_4.index t (1 : Fin 2) * 8 + 1 * q.val = q.val; rw [e1]; omega

/-! ## What a point writes back, and the array after the run -/

/-- `Rbf.entry` depends on its data only through their values. -/
theorem entry_congr {xr xr' : Fin 128 → EReal} {ctr ctr' : Fin 256 → Fin 128 → EReal} {s s' w w' : Fin 256 → EReal} {b b' : EReal}
    (h0 : ∀ d, xr d = xr' d) (h1 : ∀ k d, ctr k d = ctr' k d) (h2 : ∀ k, s k = s' k) (h3 : ∀ k, w k = w' k) (h4 : b = b') :
    Cert.Rbf.entry xr ctr s w b = Cert.Rbf.entry xr' ctr' s' w' b' := by
  obtain rfl : xr = xr' := funext h0
  obtain rfl : ctr = ctr' := funext fun k => funext (h1 k)
  obtain rfl : s = s' := funext h2
  obtain rfl : w = w' := funext h3
  rw [h4]

/-- The output array the run leaves: `Rbf.G` of the argument arrays. -/
abbrev result (c : Dev nD) : S8192x8.Idx → Elt Ideal .f32 :=
  Cert.Rbf.G (m ((c : Thread nD τ).loc main_arg0)) (m ((c : Thread nD τ).loc main_arg1)) (m ((c : Thread nD τ).loc main_arg2))
    (m ((c : Thread nD τ).loc main_arg3)) (m ((c : Thread nD τ).loc main_arg4))

/-- The body's stored value at `(p, q)` of point `t`'s block is the result's entry at row 2048·t + p, column q. -/
theorem stored_apply (c : Dev nD) (t : Fin cfg0.N) (p : Fin 2048) (q : Fin 8) (r : Fin 8192) (hr : r.val = 2048 * t.val + p.val) :
    k0_pay1 (F := Ideal) (iblk m c 0 t) (iblk m c 1 t) (iblk m c 2 t) (iblk m c 3 t) (iblk m c 4 t) (ix2 p q) = result m c (ix2 r q) := by
  refine (Cert.KernelIdeal.Pay.pay_apply (iblk m c 0 t) (iblk m c 1 t) (iblk m c 2 t) (iblk m c 3 t) (iblk m c 4 t) p q).trans ?_
  refine Eq.trans ?_ (Cert.Rbf.G_apply _ _ _ _ _ r q).symm
  exact entry_congr (fun d => rows_apply m c t p d r hr) (fun k d => centres_apply m c t k d) (fun k => widths_apply m c t k)
    (fun k => weights_apply m c t q k) (biases_apply m c t q)

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S2048x128) hz, View.ld_unit_zero (S := S256x128) hz, View.ld_unit_zero (S := S1x256) hz,
    View.ld_unit_zero (S := S8x256) hz, View.ld_unit_zero (S := S1x8) hz]
  funext j
  obtain ⟨-, -, -, -, -, -, -, -, -, -, e0, e1, ht⟩ := idx_facts t
  have hj0 : (j 0).val < 2048 := (j 0).isLt
  have hj1 : (j 1).val < 8 := (j 1).isLt
  show k0_pay1 (F := Ideal) (iblk m c 0 t) (iblk m c 1 t) (iblk m c 2 t) (iblk m c 3 t) (iblk m c 4 t) j
    = result m c (((cfg0.win 5).blk t).view.emb j)
  -- the index inside the block by its coordinates, and where the block puts it in the array
  have hjj : (j : S2048x8.Idx) = ix2 (⟨(j 0).val, hj0⟩ : Fin 2048) (⟨(j 1).val, hj1⟩ : Fin 8) :=
    funext fun a => Fin.ext (by match a with | ⟨0, _⟩ => rfl | ⟨1, _⟩ => rfl)
  have hee : ((cfg0.win 5).blk t).view.emb j = ix2 (⟨2048 * t.val + (j 0).val, by omega⟩ : Fin 8192) (⟨(j 1).val, hj1⟩ : Fin 8) :=
    funext fun a => Fin.ext (by
      match a with
      | ⟨0, _⟩ => show win0_5.index t (0 : Fin 2) * 2048 + 1 * (j 0).val = 2048 * t.val + (j 0).val; rw [e0]; omega
      | ⟨1, _⟩ => show win0_5.index t (1 : Fin 2) * 8 + 1 * (j 1).val = (j 1).val; rw [e1]; omega)
  exact ((congrArg (k0_pay1 (F := Ideal) (iblk m c 0 t) (iblk m c 1 t) (iblk m c 2 t) (iblk m c 3 t) (iblk m c 4 t)) hjj).trans
    (stored_apply m c t _ _ _ rfl)).trans (congrArg (result m c) hee.symm)

/-- An index of the output array is in point `t`'s block iff each coordinate is in the block's range on its axis. -/
theorem mem_blk (t : Fin cfg0.N) (i : S8192x8.Idx) :
    i ∈ ((cfg0.win 5).blk t).view.set ↔ ∀ a : Fin 2, win0_5.index t a * S2048x8.size a ≤ (i a).val ∧ (i a).val < win0_5.index t a * S2048x8.size a + S2048x8.size a := by
  show i ∈ ((View.whole main_v2).slice (win0_5.rect t)).set ↔ _
  rw [View.set_slice_whole, Rect.mem_set_unit]
  exact Iff.rfl

/-- THE ARRAY after the run is the result: every point writes back its block of it, and row `r` lies in the block of point
    `r / 2048`. -/
theorem final (c : Dev nD) : (dats m 0 c).arrAt 5 cfg0.N = result m c :=
  (dats m 0 c).arrAt_eq_of_cover 5 (result m c) (fun t _ => flushed_eq m c t) fun i => by
    have hi0 : (i 0).val < 8192 := (i 0).isLt
    have hi1 : (i 1).val < 8 := (i 1).isLt
    obtain ⟨t, ht⟩ := point_of ⟨(i 0).val / 2048, by omega⟩
    have ht' : t.val = (i 0).val / 2048 := ht
    obtain ⟨-, -, -, -, -, -, -, -, -, -, e0, e1, -⟩ := idx_facts t
    refine ⟨t, flush0_5 t, ?_⟩
    rw [mem_blk]
    intro a
    match a with
    | ⟨0, _⟩ =>
      show win0_5.index t (0 : Fin 2) * 2048 ≤ (i 0).val ∧ (i 0).val < win0_5.index t (0 : Fin 2) * 2048 + 2048
      rw [e0]; omega
    | ⟨1, _⟩ =>
      show win0_5.index t (1 : Fin 2) * 8 ≤ (i 1).val ∧ (i 1).val < win0_5.index t (1 : Fin 2) * 8 + 8
      rw [e1]; omega

/-- The run, read: the output array ends as the result, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Arr

end
-- ==== Proof.RefStage.lean ====
/-
  The reference's result at an entry.

  Read one operation at a time, the reference's last stage at `(r, o)` is the head's sum over the 256 centres of the
  Gaussian response of row `r` to centre `k` times the weight `W o k` (the weights reach the product transposed), plus
  bias `o`; the response's argument is minus the clamped expansion ‖x_r‖² − 2⟨x_r, c_k⟩ + ‖c_k‖² (two row sums started
  from the zero word, and a product with the centres transposed) times the squared width. That is `Cert.Rbf.entry` of row
  `r` of the input, the centres, the widths, row `o` of the weights and bias `o`: the zero a sum starts from adds nothing.
-/
import proofs.«148565_j73349451481363_1_alg».proof.Proof.Gen.ReferenceIdeal.Read
import proofs.«148565_j73349451481363_1_alg».proof.Proof.Spec
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Read Idealize.ShloMosaic Idealize.ShloMosaic.ValueIdx

/-! ## Where each stage reads its operands, for the entry `(r, o)`, centre `k` and feature `d` -/

/-- The head's right operand, the weights transposed, at `(k, o)` reads the weights at `(o, k)`. -/
theorem at_w (r : Fin 8192) (o : Fin 8) (k : Fin 256) : idx_main_v22 (ridx_main_v23 (ix2 r o) k) = ix2 o k :=
  funext fun a => Fin.ext (by match a with | ⟨0, _⟩ => rfl | ⟨1, _⟩ => rfl)

/-- The widths' square, laid out as a row and broadcast along the rows, reads width `k`. -/
theorem at_s (r : Fin 8192) (o : Fin 8) (k : Fin 256) : idx_main_v18 (idx_main_v19 (lidx_main_v23 (ix2 r o) k)) = ix1 k :=
  funext fun a => Fin.ext (by match a with | ⟨0, _⟩ => rfl)

/-- ‖c_k‖², a row sum laid out as a row and broadcast along the rows, sums the squares of centre `k`'s features. -/
theorem at_cc (r : Fin 8192) (o : Fin 8) (k : Fin 256) (d : Fin 128) :
    idx_main_v4 (idx_main_v11 (idx_main_v12 (lidx_main_v23 (ix2 r o) k))) d = ix2 k d :=
  funext fun a => Fin.ext (by match a with | ⟨0, _⟩ => rfl | ⟨1, _⟩ => rfl)

/-- ‖x_r‖², a row sum kept as a column and broadcast along the centres, sums the squares of row `r`'s features. -/
theorem at_xx (r : Fin 8192) (o : Fin 8) (k : Fin 256) (d : Fin 128) :
    idx_main_v1 (idx_main_v2 (idx_main_v9 (lidx_main_v23 (ix2 r o) k))) d = ix2 r d :=
  funext fun a => Fin.ext (by match a with | ⟨0, _⟩ => rfl | ⟨1, _⟩ => rfl)

/-- The product with the centres: its left operand at `(r, d)`, -/
theorem at_xc_l (r : Fin 8192) (o : Fin 8) (k : Fin 256) (d : Fin 128) :
    lidx_main_v6 (lidx_main_v23 (ix2 r o) k) d = ix2 r d :=
  funext fun a => Fin.ext (by match a with | ⟨0, _⟩ => rfl | ⟨1, _⟩ => rfl)

/-- and its right operand, the centres transposed, at `(d, k)`, which reads the centres at `(k, d)`. -/
theorem at_xc_r (r : Fin 8192) (o : Fin 8) (k : Fin 256) (d : Fin 128) :
    idx_main_v5 (ridx_main_v6 (lidx_main_v23 (ix2 r o) k) d) = ix2 k d :=
  funext fun a => Fin.ext (by match a with | ⟨0, _⟩ => rfl | ⟨1, _⟩ => rfl)

/-- The bias, laid out as a row and broadcast along the rows, reads bias `o`. -/
theorem at_b (r : Fin 8192) (o : Fin 8) : idx_main_v24 (idx_main_v25 (ix2 r o)) = ix1 o :=
  funext fun a => Fin.ext (by match a with | ⟨0, _⟩ => rfl)

/-! ## The last stage at an entry -/

/-- The reference's result at `(r, o)` is `Rbf.entry` of row `r` of the input, the centres, the widths, row `o` of the
    weights and bias `o`. -/
theorem ref_apply (x0 : (⟨S8192x128, .f32⟩ : BufTy).Contents (Elt Ideal)) (x1 : (⟨S256x128, .f32⟩ : BufTy).Contents (Elt Ideal))
    (x2 : (⟨S256, .f32⟩ : BufTy).Contents (Elt Ideal)) (x3 : (⟨S8x256, .f32⟩ : BufTy).Contents (Elt Ideal))
    (x4 : (⟨S8, .f32⟩ : BufTy).Contents (Elt Ideal)) (r : Fin 8192) (o : Fin 8) :
    val_main_v26 (F := Ideal) x0 x1 x2 x3 x4 (ix2 r o)
      = Cert.Rbf.entry (fun d => x0 (ix2 r d)) (fun k d => x1 (ix2 k d)) (fun k => x2 (ix1 k)) (fun k => x3 (ix2 o k)) (x4 (ix1 o)) := by
  rw [val_main_v26_apply, val_main_v23_apply, val_main_v25_apply, val_main_v24_apply, at_b]
  simp only [val_main_v22_apply, at_w, val_main_v21_apply, val_main_v20_apply, val_main_v19_apply, val_main_v18_apply,
    val_main_v17_apply, at_s, val_main_v16_apply, val_main_v15_apply, val_main_v14_apply, val_main_cst_2_apply,
    val_main_v13_apply, val_main_v12_apply, val_main_v11_apply, val_main_v4_apply, val_main_cst_0_apply, val_main_v3_apply, at_cc,
    val_main_v10_apply, val_main_v9_apply, val_main_v2_apply, val_main_v1_apply, val_main_cst_apply, val_main_v0_apply, at_xx,
    val_main_v8_apply, val_main_v7_apply, val_main_cst_1_apply, val_main_v6_apply, at_xc_l, val_main_v5_apply, at_xc_r]
  simp only [Cert.Rbf.entry, Cert.Rbf.sqdist, Ideal.addf_def, Ideal.subf_def, Ideal.mulf_def, Ideal.hostUnary_exp_def,
    Ideal.hostNegf_def, Ideal.negf_def, Ideal.maximumf_def, Ideal.ofBits_def, Ideal.ofBits_zero_f32, zero_add]

/-- So the reference's result array is `Rbf.G` of its arguments. -/
theorem ref_eq (x0 : (⟨S8192x128, .f32⟩ : BufTy).Contents (Elt Ideal)) (x1 : (⟨S256x128, .f32⟩ : BufTy).Contents (Elt Ideal))
    (x2 : (⟨S256, .f32⟩ : BufTy).Contents (Elt Ideal)) (x3 : (⟨S8x256, .f32⟩ : BufTy).Contents (Elt Ideal))
    (x4 : (⟨S8, .f32⟩ : BufTy).Contents (Elt Ideal)) :
    val_main_v26 (F := Ideal) x0 x1 x2 x3 x4 = Cert.Rbf.G x0 x1 x2 x3 x4 := by
  funext i
  obtain ⟨r, o, rfl⟩ : ∃ (r : Fin 8192) (o : Fin 8), i = ix2 r o := ⟨i 0, i 1, eq_ix2 i⟩
  rw [ref_apply, Cert.Rbf.G_apply]

end Cert.ReferenceIdeal.Stage

end
-- ==== Proof.lean ====
/-
  A radial-basis layer with a linear head, tiled over the batch, against its plain formulation.

  For an input `x` [8192, 128], centres `c` [256, 128], widths `s` [256], head weights `W` [8, 256] and biases `b` [8], both
  programs compute, at every output entry `(r, o)`,

      (∑ₖ exp(−max(‖x_r‖² − 2·⟨x_r, c_k⟩ + ‖c_k‖², 0) · s_k²) · W_o,k) + b_o        (`Cert.Rbf.entry`, Proof/Spec.lean)

  over the extended reals, with the operations in the same order. The kernel walks the batch in four blocks of 2048 rows
  with the small operands resident, takes both products with the second operand contracted on its minor axis and
  accumulates them into zero, keeps the row norms as columns, and writes `0 - y` where the reference negates; the
  reference transposes the second operand of each product and starts its row sums from a zero. None of this changes the
  value: a product accumulated into zero and a sum started from zero are the plain sums, and `0 - y = -y` on the
  extended reals. No law that needs finiteness is used, so the precondition is never opened.

  Proof/Payload.lean reads the kernel body's stored value at an entry, Proof/KernelValue.lean assembles the four
  written-back blocks into the output array, Proof/RefStage.lean reads the reference's last stage at an entry; here the
  claims are put together. The idealization rewrote nothing, so `preserves` has no conjunct.
-/
import proofs.«148565_j73349451481363_1_alg».proof.Defs
import proofs.«148565_j73349451481363_1_alg».proof.Proof.Gen.Kernel
import proofs.«148565_j73349451481363_1_alg».proof.Proof.Gen.Kernel.Skeleton
import proofs.«148565_j73349451481363_1_alg».proof.Proof.Gen.Kernel.Launch
import proofs.«148565_j73349451481363_1_alg».proof.Proof.Gen.Kernel.Points
import proofs.«148565_j73349451481363_1_alg».proof.Proof.Gen.Kernel.Frame
import proofs.«148565_j73349451481363_1_alg».proof.Proof.Gen.KernelIdeal
import proofs.«148565_j73349451481363_1_alg».proof.Proof.Gen.KernelIdeal.Skeleton
import proofs.«148565_j73349451481363_1_alg».proof.Proof.Gen.KernelIdeal.Launch
import proofs.«148565_j73349451481363_1_alg».proof.Proof.Gen.KernelIdeal.Points
import proofs.«148565_j73349451481363_1_alg».proof.Proof.Gen.KernelIdeal.Frame
import proofs.«148565_j73349451481363_1_alg».proof.Proof.Gen.ReferenceIdeal
import proofs.«148565_j73349451481363_1_alg».proof.Proof.Gen.Pre_finite_inputs
import proofs.«148565_j73349451481363_1_alg».proof.Proof.Gen.KernelIdeal.Value
import proofs.«148565_j73349451481363_1_alg».proof.Proof.Gen.ReferenceIdeal.Run
import proofs.«148565_j73349451481363_1_alg».proof.Proof.Gen.ReferenceIdeal.Read
import proofs.«148565_j73349451481363_1_alg».proof.Proof.KernelValue
import proofs.«148565_j73349451481363_1_alg».proof.Proof.RefStage
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's output array ends as `Rbf.G` of its arguments (four blocks of 2048 rows, each
    entry `Rbf.entry` of its row), and the reference's result is `Rbf.G` of its own arguments, which agree with the
    kernel's. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Stage.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
